-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The linear layer y = x · Wᵀ + b over the extended reals, entry by entry: for a token row p and an output
  feature q,  y(p, q) = (Σ_k x(p, k) · W(q, k)) + b(q).  Both programs of this certificate compute this one
  function of the three argument arrays; nothing here depends on either program.
-/
import Idealize.ShloMosaic.PureOps.Ideal.Laws
import Idealize.ShloMosaic.Lib.ValueIdx

noncomputable section

namespace Cert.Linear

open Idealize.ShloMosaic Idealize.ShloMosaic.ValueIdx

/-- The activations: 8192 token rows of 4096 input features. -/
abbrev SX : Shape := ⟨2, ![8192, 4096]⟩
/-- The weight: 4096 output features by 4096 input features (stored row per OUTPUT feature). -/
abbrev SW : Shape := ⟨2, ![4096, 4096]⟩
/-- The bias: one entry per output feature. -/
abbrev SB : Shape := ⟨1, ![4096]⟩

/-- y(p, q) = Σ_k x(p, k) · W(q, k) + b(q): each output entry contracts row p of x with ROW q of W (the weight is
    used transposed), then adds the bias of feature q. -/
def linear (x : FVec Ideal SX .f32) (w : FVec Ideal SW .f32) (b : FVec Ideal SB .f32) : FVec Ideal SX .f32 :=
  fun i => (∑ k : Fin 4096, x (ix2 (i 0) k) * w (ix2 (i 1) k)) + b (ix1 (i 1))

/-- The same at explicit coordinates. -/
theorem linear_apply (x : FVec Ideal SX .f32) (w : FVec Ideal SW .f32) (b : FVec Ideal SB .f32) (p : Fin 8192) (q : Fin 4096) :
    linear x w b (ix2 p q) = (∑ k : Fin 4096, x (ix2 p k) * w (ix2 q k)) + b (ix1 q) := rfl

end Cert.Linear

end
-- ==== Proof.Payload.lean ====
/-
  What the kernel body stores at one grid point, read entry by entry on the extended reals. The body loads a
  [1024, 4096] block of x, a [512, 4096] block of W and a [1, 512] block of the bias, rounds the first two to bf16
  (the identity on extended reals), contracts axis 1 of both into a zero accumulator and adds the bias row to every
  row. So entry (p, q) of the stored [1024, 512] tile is  Σ_k xblk(p, k) · wblk(q, k) + bblk(0, q).
-/
import proofs.«135124_g13597866459289_cont_week2b_889_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.TcCoe Idealize.ShloMosaic.ValueIdx

/-! ## The contraction's operand indices: both operands are contracted over their axis 1 -/

/-- The left operand's row is the tile's row. -/
theorem lhs_row (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- The left operand's column is the contraction index. -/
theorem lhs_col (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
/-- The right operand's ROW is the tile's column: the weight block enters transposed. -/
theorem rhs_row (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- The right operand's column is the contraction index. -/
theorem rhs_col (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The product into a zero accumulator at (p, q): the sum over k of l(p, k) · r(q, k). -/
theorem matmul_zero_apply {φ₁ φ₂ : FTy} (l : FVec Ideal S1024x4096 φ₁) (r : FVec Ideal S512x4096 φ₂) (p : Fin 1024) (q : Fin 512) :
    matmul dot_S1024x4096_S512x4096_S1024x512_1_1_0_0_n_n none l r (constant S1024x512 .f32 0x00000000#32) (ix2 p q)
      = ∑ k : Fin 4096, l (ix2 p k) * r (ix2 q k) := by
  refine (Ideal.matmul_constant_zero_apply dot_S1024x4096_S512x4096_S1024x512_1_1_0_0_n_n none l r (ix2 p q)).trans ?_
  rw [← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_row _ _
    | ⟨1, _⟩ => exact (lhs_col _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_row _ _
    | ⟨1, _⟩ => exact (rhs_col _ _).trans hk)
  rw [el, er]

/-- The stored tile at (p, q): the contraction of row p of the x block with row q of the W block, plus the bias
    block's entry q. The two roundings to bf16 and the rank-preserving shape cast change nothing; the broadcast
    repeats the bias row down the 1024 rows. -/
theorem tile_apply (x0 : Vec Ideal S1024x4096 .f32) (x1 : Vec Ideal S512x4096 .f32) (x2 : Vec Ideal S1x512 .f32) (p : Fin 1024) (q : Fin 512) :
    k0_pay1 (F := Ideal) x0 x1 x2 (ix2 p q) = (∑ k : Fin 4096, x0 (ix2 p k) * x1 (ix2 q k)) + x2 (ix2 (0 : Fin 1) q) := by
  unfold k0_pay1
  rw [addf_apply, matmul_zero_apply, broadcastTo_1b_ab_apply, shapeCast_self]
  rfl

end Cert.KernelIdeal.Tile

end
-- ==== Proof.KernelValue.lean ====
/-
  The kernel's result array is the linear layer of its arguments. The grid has 8 × 8 points; point (i, j) reads rows
  1024·i … 1024·i + 1023 of x, rows 512·j … 512·j + 511 of W and entries 512·j … 512·j + 511 of the bias (handed to the
  kernel as a [1, 4096] row, the host's reshape of b), and writes the [1024, 512] tile at block (i, j) of the result.
  Entry (p, q) of that tile is Σ_k xblk(p, k) · wblk(q, k) + bblk(0, q), which is y(1024·i + p, 512·j + q); the 64 tiles
  cover the [8192, 4096] result, so the array ends holding y everywhere.
-/
import proofs.«135124_g13597866459289_cont_week2b_889_2_alg».proof.Proof.Gen.KernelIdeal.Value
import proofs.«135124_g13597866459289_cont_week2b_889_2_alg».proof.Proof.Payload
import proofs.«135124_g13597866459289_cont_week2b_889_2_alg».proof.Proof.Spec
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value Cert.KernelIdeal.Tile
open Idealize.ShloMosaic Idealize.ShloMosaic.TcCoe Idealize.SL.Sem Idealize.ShloMosaic.ValueIdx
open Idealize.ShloMosaic.Pipeline (Dat)
open Cert.Linear

variable (m : (ℓ : Loc nD τ sig) → Buf (Elt Ideal) ℓ) (ρ : Dev nD → PrngReg)

/-- The activations, the weight and the bias as launched. -/
abbrev xArr (c : Dev nD) : FVec Ideal SX .f32 := m ((c : Thread nD τ).loc main_arg0)
abbrev wArr (c : Dev nD) : FVec Ideal SW .f32 := m ((c : Thread nD τ).loc main_arg1)
abbrev bArr (c : Dev nD) : FVec Ideal SB .f32 := m ((c : Thread nD τ).loc main_arg2)

theorem zero_off : (![0, 0] : Fin 2 → Nat) = fun _ => 0 := funext fun a => by fin_cases a <;> rfl

/-! ## Which block each window reads at a grid point -/

/-- Decided over the 64 grid points: the x window's block row is the result tile's block row, the W window's block row
    is the result tile's block COLUMN, the bias window's block column is the result tile's block column; every other block
    index is 0; and the result's block indices stay below 8. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every one of the 8 × 8 result blocks is some grid point's. -/
theorem block_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-! ## The bias row the region finds: the host's reshape of b -/

theorem bias_row (c : Dev nD) :
    (V m c main_v0 : S1x4096.Idx → EReal) = shapeCast S1x4096 (bArr m c) shapeCasts_S4096_S1x4096 := by
  dsimp only [Gen.V, Gen.hostOps0]; after_results; rfl

/-- Entry (0, q) of the reshaped bias is b(q). -/
theorem bias_row_apply (c : Dev nD) (j : S1x4096.Idx) : (V m c main_v0 : S1x4096.Idx → EReal) j = bArr m c (ix1 (j 1)) := by
  rw [bias_row]
  refine shapeCast_apply _ _ j (ix1 (j 1)) ?_
  rw [Shape.rowMajor_val_one, Shape.rowMajor_val_two]
  have h0 : (j 0).val < 1 := (j 0).isLt
  show (j 1).val = (j 0).val * 4096 + (j 1).val
  omega

/-! ## The three input blocks at a grid point, as entries of the argument arrays -/

/-- The x block at point t: entry (p, k) is x(1024 · (result block row) + p, k). -/
theorem xblk_apply (c : Dev nD) (t : Fin cfg0.N) (y : S1024x4096.Idx) (i : S8192x4096.Idx)
    (h0 : (i 0).val = win0_3.index t (0 : Fin 2) * 1024 + (y 0).val) (h1 : (i 1).val = (y 1).val) :
    (iblk m c 0 t : Vec Ideal S1024x4096 .f32) y = xArr m c i := by
  obtain ⟨e0, e1, -⟩ := block_indices t
  unfold iblk
  rw [View.read_apply]
  show V m c main_arg0 _ = _
  rw [V_main_arg0]
  show m ((c : Thread nD τ).loc main_arg0) _ = m ((c : Thread nD τ).loc main_arg0) i
  congr 1
  funext a
  apply Fin.ext
  match a with
  | ⟨0, _⟩ => show win0_0.index t (0 : Fin 2) * 1024 + 1 * (y 0).val = (i 0).val; omega
  | ⟨1, _⟩ => show win0_0.index t (1 : Fin 2) * 4096 + 1 * (y 1).val = (i 1).val; omega

/-- The W block at point t: entry (q, k) is W(512 · (result block column) + q, k). -/
theorem wblk_apply (c : Dev nD) (t : Fin cfg0.N) (y : S512x4096.Idx) (i : S4096x4096.Idx)
    (h0 : (i 0).val = win0_3.index t (1 : Fin 2) * 512 + (y 0).val) (h1 : (i 1).val = (y 1).val) :
    (iblk m c 1 t : Vec Ideal S512x4096 .f32) y = wArr m c i := by
  obtain ⟨-, -, e2, e3, -⟩ := block_indices t
  unfold iblk
  rw [View.read_apply]
  show V m c main_arg1 _ = _
  rw [V_main_arg1]
  show m ((c : Thread nD τ).loc main_arg1) _ = m ((c : Thread nD τ).loc main_arg1) i
  congr 1
  funext a
  apply Fin.ext
  match a with
  | ⟨0, _⟩ => show win0_1.index t (0 : Fin 2) * 512 + 1 * (y 0).val = (i 0).val; omega
  | ⟨1, _⟩ => show win0_1.index t (1 : Fin 2) * 4096 + 1 * (y 1).val = (i 1).val; omega

/-- The bias block at point t: entry (0, q) is b(512 · (result block column) + q). -/
theorem bblk_apply (c : Dev nD) (t : Fin cfg0.N) (y : S1x512.Idx) (q : Fin 4096)
    (h : q.val = win0_3.index t (1 : Fin 2) * 512 + (y 1).val) :
    (iblk m c 2 t : Vec Ideal S1x512 .f32) y = bArr m c (ix1 q) := by
  obtain ⟨-, -, -, -, e4, e5, -⟩ := block_indices t
  unfold iblk
  rw [View.read_apply]
  show (V m c main_v0 : S1x4096.Idx → EReal) _ = _
  rw [bias_row_apply]
  refine congrArg (bArr m c) (congrArg ix1 (Fin.ext ?_))
  show win0_2.index t (1 : Fin 2) * 512 + 1 * (y 1).val = q.val
  omega

/-! ## One tile is a block of the linear layer -/

/-- The tile point t stores, at (p, q), is y at the array index i that block t puts (p, q) at. -/
theorem tile_eq (c : Dev nD) (t : Fin cfg0.N) (j : S1024x512.Idx) (i : S8192x4096.Idx)
    (h0 : (i 0).val = win0_3.index t (0 : Fin 2) * 1024 + (j 0).val)
    (h1 : (i 1).val = win0_3.index t (1 : Fin 2) * 512 + (j 1).val) :
    k0_pay1 (F := Ideal) (iblk m c 0 t) (iblk m c 1 t) (iblk m c 2 t) j = linear (xArr m c) (wArr m c) (bArr m c) i := by
  obtain ⟨p, q, rfl⟩ : ∃ (p : Fin 1024) (q : Fin 512), j = ix2 p q := ⟨j 0, j 1, eq_ix2 j⟩
  refine (tile_apply (iblk m c 0 t) (iblk m c 1 t) (iblk m c 2 t) p q).trans ?_
  exact congrArg₂ (· + ·)
    (Finset.sum_congr rfl fun k _ => congrArg₂ (· * ·)
      (xblk_apply m c t (ix2 p k) (ix2 (i 0) k) h0 rfl)
      (wblk_apply m c t (ix2 q k) (ix2 (i 1) k) h1 rfl))
    (bblk_apply m c t (ix2 (0 : Fin 1) q) (i 1) h1)

/-- What point t writes back is block t of the linear layer. -/
theorem flushed_eq (c : Dev nD) (t : Fin cfg0.N) :
    (dats m 0 c).flushed 3 t = ((cfg0.win 3).blk t).view.read (Elt Ideal) (linear (xArr m c) (wArr m c) (bArr m c)) := by
  rw [flushed3]
  unfold out0_3
  rw [View.canon_unit_zero zero_off]
  simp only [View.ld_unit_zero (S := S1024x4096) zero_off, View.ld_unit_zero (S := S512x4096) zero_off, View.ld_unit_zero (S := S1x512) zero_off]
  funext j
  show k0_pay1 (F := Ideal) (iblk m c 0 t) (iblk m c 1 t) (iblk m c 2 t) j = linear (xArr m c) (wArr m c) (bArr m c) (((cfg0.win 3).blk t).view.emb j)
  refine tile_eq m c t j _ ?_ ?_
  · show win0_3.index t (0 : Fin 2) * 1024 + 1 * (j 0).val = _; omega
  · show win0_3.index t (1 : Fin 2) * 512 + 1 * (j 1).val = _; omega

/-! ## The 64 tiles cover the result -/

/-- An index is in point t's block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Entry (r, s) of the result lies in the tile of the point whose block is (r / 1024, s / 512). -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- So the result array ends holding the linear layer of the arguments. -/
theorem final (c : Dev nD) : (dats m 0 c).arrAt 3 cfg0.N = linear (xArr m c) (wArr m c) (bArr m c) :=
  (dats m 0 c).arrAt_eq_of_cover 3 (linear (xArr m c) (wArr m c) (bArr m c)) (fun t _ => flushed_eq m c t) cover

/-- The kernel's run, read: the result at the linear layer of the arguments, the arguments unchanged. -/
theorem run : θ_run defs (onTc (τ := τ) (main (F := Ideal))) ⟨m, fun _ => 0, ρ⟩ fun r => ∀ c : Dev nD,
      r.2.mem ((c : Thread nD τ).loc main_v1) = linear (xArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefValue.lean ====
/-
  The reference computes the linear layer: it transposes W, contracts x's axis 1 with the transposed weight's axis 0,
  broadcasts the bias over the rows and adds. Read entry by entry on the extended reals, the transposed weight at
  (k, q) is W(q, k) and the twice-broadcast bias at (p, q) is b(q), so entry (p, q) is Σ_k x(p, k) · W(q, k) + b(q).
-/
import proofs.«135124_g13597866459289_cont_week2b_889_2_alg».proof.Proof.Gen.ReferenceIdeal.Read
import proofs.«135124_g13597866459289_cont_week2b_889_2_alg».proof.Proof.Spec

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx
open Cert.Linear

/-- The left operand is read at (row of the result, k). -/
theorem lidx_eq (i : S8192x4096.Idx) (k : Fin 4096) : lidx_main_v1 i k = ix2 (i 0) k :=
  funext fun a => Fin.ext (by match a with | ⟨0, _⟩ => rfl | ⟨1, _⟩ => rfl)

/-- The transposed weight read at (k, column of the result) is W at (column of the result, k). -/
theorem ridx_eq (i : S8192x4096.Idx) (k : Fin 4096) : idx_main_v0 (ridx_main_v1 i k) = ix2 (i 1) k :=
  funext fun a => Fin.ext (by match a with | ⟨0, _⟩ => rfl | ⟨1, _⟩ => rfl)

/-- The bias broadcast to [1, 4096] and then to [8192, 4096], read at (p, q), is b(q). -/
theorem bidx_eq (i : S8192x4096.Idx) : idx_main_v2 (idx_main_v3 i) = ix1 (i 1) :=
  funext fun a => Fin.ext (by match a with | ⟨0, _⟩ => rfl)

/-- The reference's result is the linear layer of its three arguments. -/
theorem ref_eq (x : FVec Ideal S8192x4096 .f32) (w : FVec Ideal S4096x4096 .f32) (b : FVec Ideal S4096 .f32) :
    val_main_v4 (F := Ideal) x w b = linear x w b := by
  funext i
  rw [val_main_v4_apply, val_main_v1_apply, val_main_v3_apply, val_main_v2_apply]
  simp only [val_main_v0_apply, lidx_eq, ridx_eq, bidx_eq, Ideal.addf_def]
  rfl

end Cert.ReferenceIdeal.Hand

end
-- ==== Proof.lean ====
/-
  The linear layer y = x · Wᵀ + b, computed by a tiled kernel and by a plain host program, is one function of the
  three arguments on the extended reals. The kernel's result array ends holding y (each of the 64 grid points writes
  one [1024, 512] tile, entry (p, q) of which is the contraction of a row of x with a ROW of W plus the bias entry; the
  tiles cover the array); the host program's result is y as well (the transposed weight read at (k, q) is W(q, k), the
  broadcast bias read at (p, q) is b(q)). The equality needs no law beyond reading both sums over the same index in
  the same order, so the finiteness of the inputs is never used. The word-level kernel rewrites nothing when it is
  idealized, so it is its own sanctioned idealization.
-/
import proofs.«135124_g13597866459289_cont_week2b_889_2_alg».proof.Defs
import proofs.«135124_g13597866459289_cont_week2b_889_2_alg».proof.Proof.Gen.Kernel
import proofs.«135124_g13597866459289_cont_week2b_889_2_alg».proof.Proof.Gen.Kernel.Frame
import proofs.«135124_g13597866459289_cont_week2b_889_2_alg».proof.Proof.Gen.KernelIdeal
import proofs.«135124_g13597866459289_cont_week2b_889_2_alg».proof.Proof.Gen.KernelIdeal.Frame
import proofs.«135124_g13597866459289_cont_week2b_889_2_alg».proof.Proof.Gen.KernelIdeal.Value
import proofs.«135124_g13597866459289_cont_week2b_889_2_alg».proof.Proof.Gen.ReferenceIdeal
import proofs.«135124_g13597866459289_cont_week2b_889_2_alg».proof.Proof.Gen.ReferenceIdeal.Run
import proofs.«135124_g13597866459289_cont_week2b_889_2_alg».proof.Proof.Gen.ReferenceIdeal.Read
import proofs.«135124_g13597866459289_cont_week2b_889_2_alg».proof.Proof.Gen.Pre_finite_inputs
import proofs.«135124_g13597866459289_cont_week2b_889_2_alg».proof.Proof.Spec
import proofs.«135124_g13597866459289_cont_week2b_889_2_alg».proof.Proof.KernelValue
import proofs.«135124_g13597866459289_cont_week2b_889_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The host program is a straight line of five operations: it runs to its end, and no operation writes an argument. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the linear layer of their (agreeing) arguments in the result array. -/
theorem algebraic : Cert.algebraic_KernelIdeal_ReferenceIdeal := by
  intro m ρ m' ρ' _ hagree
  refine ⟨fun c => Cert.Linear.linear (Cert.KernelIdeal.Whole.xArr m c) (Cert.KernelIdeal.Whole.wArr m c) (Cert.KernelIdeal.Whole.bArr m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Hand.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
